-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x64 : Shape := ⟨2, ![1024, 64]⟩
abbrev S512x64x64 : Shape := ⟨3, ![512, 64, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S512x64x64 : S_.BroadcastsInDim S512x64x64 (![] : Fin 0 → Fin S512x64x64.rank)
  reducesTo_S512x64x64_S_d0_1_2 : S512x64x64.ReducesTo [0, 1, 2] S_

variable [Facts]

def fn_part1 {F : FTy → Type} [FloatOps F] (main_arg4 : FVec F S512x64x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S512x64x64 .f32 := Host.absf main_arg4
  let main_cst_6 : FVec F S_ .f32 := constant S_ .f32 0x7F800000#32
  let main_v20 : FVec F S512x64x64 .f32 := broadcastInDim S512x64x64 ![] bcast_S_S512x64x64 main_cst_6
  let main_v21 : IVec S512x64x64 1 := cmpf .olt main_v19 main_v20
  let main_c_7 : IVec S_ 1 := constantI S_ 1 1#1
  let main_v22 : IVec S_ 1 := (fun x v => Host.reduce IntOp.andi x v reducesTo_S512x64x64_S_d0_1_2 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1024x64 .f32) (main_arg3 : FVec F S1024x64 .f32) (main_arg4 : FVec F S512x64x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S16384x1024 : Shape := ⟨2, ![16384, 1024]⟩
abbrev S1024x64 : Shape := ⟨2, ![1024, 64]⟩
abbrev S512x64x64 : Shape := ⟨3, ![512, 64, 64]⟩
abbrev S512x4096 : Shape := ⟨2, ![512, 4096]⟩
abbrev S4096x512 : Shape := ⟨2, ![4096, 512]⟩
abbrev S16384x512 : Shape := ⟨2, ![16384, 512]⟩
abbrev S512x1024 : Shape := ⟨2, ![512, 1024]⟩
abbrev S512x512 : Shape := ⟨2, ![512, 512]⟩
abbrev S512x64 : Shape := ⟨2, ![512, 64]⟩
abbrev S512x64x1 : Shape := ⟨3, ![512, 64, 1]⟩
abbrev S512x1x64 : Shape := ⟨3, ![512, 1, 64]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x64, .f32⟩
  | .hbm, ⟨3, _⟩ => ⟨S1024x64, .f32⟩
  | .hbm, ⟨4, _⟩ => ⟨S512x64x64, .f32⟩
  | .hbm, ⟨5, _⟩ => ⟨S512x4096, .f32⟩
  | .hbm, ⟨6, _⟩ => ⟨S4096x512, .f32⟩
  | .hbm, ⟨7, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x64, .f32⟩
  | .local _ .vmem, ⟨5, _⟩ => ⟨S1024x64, .f32⟩
  | .local _ .vmem, ⟨6, _⟩ => ⟨S4096x512, .f32⟩
  | .local _ .vmem, ⟨7, _⟩ => ⟨S512x512, .f32⟩
  | .local _ .vmem, ⟨8, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512x64x64_S512x4096 : S512x64x64.ShapeCasts S512x4096
  transposes_S512x4096_S4096x512_1_0 : S512x4096.Transposes [1, 0] S4096x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S512x64_S512x64x1 : S512x64.ShapeCasts S512x64x1
  shapeCasts_S512x64_S512x1x64 : S512x64.ShapeCasts S512x1x64
  broadcasts_S512x64x1_S512x64x64 : S512x64x1.Broadcasts S512x64x64
  broadcasts_S512x1x64_S512x64x64 : S512x1x64.Broadcasts S512x64x64
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  dot_S512x1024_S1024x64_S512x64_1_0_0_1_n_n_wf : DotDims.WF S512x1024 S1024x64 S512x64 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .f32 = 32 ∨ (Rect.block (s := S4096x512) S4096x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x64 : Shape := ⟨2, ![1024, 64]⟩
abbrev S512x64x64 : Shape := ⟨3, ![512, 64, 64]⟩
abbrev S16384x64 : Shape := ⟨2, ![16384, 64]⟩
abbrev S16384x64x1 : Shape := ⟨3, ![16384, 64, 1]⟩
abbrev S16384x1x64 : Shape := ⟨3, ![16384, 1, 64]⟩
abbrev S16384x64x64 : Shape := ⟨3, ![16384, 64, 64]⟩
abbrev S16384x4096 : Shape := ⟨2, ![16384, 4096]⟩
abbrev S512x4096 : Shape := ⟨2, ![512, 4096]⟩
abbrev S4096x512 : Shape := ⟨2, ![4096, 512]⟩
abbrev S16384x512 : Shape := ⟨2, ![16384, 512]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x64, .f32⟩
  | .hbm, ⟨3, _⟩ => ⟨S1024x64, .f32⟩
  | .hbm, ⟨4, _⟩ => ⟨S512x64x64, .f32⟩
  | .hbm, ⟨5, _⟩ => ⟨S16384x64, .f32⟩
  | .hbm, ⟨6, _⟩ => ⟨S16384x64, .f32⟩
  | .hbm, ⟨7, _⟩ => ⟨S16384x64x1, .f32⟩
  | .hbm, ⟨8, _⟩ => ⟨S16384x1x64, .f32⟩
  | .hbm, ⟨9, _⟩ => ⟨S16384x64x64, .f32⟩
  | .hbm, ⟨10, _⟩ => ⟨S16384x64x64, .f32⟩
  | .hbm, ⟨11, _⟩ => ⟨S16384x64x64, .f32⟩
  | .hbm, ⟨12, _⟩ => ⟨S16384x4096, .f32⟩
  | .hbm, ⟨13, _⟩ => ⟨S512x4096, .f32⟩
  | .hbm, ⟨14, _⟩ => ⟨S4096x512, .f32⟩
  | .hbm, ⟨15, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  shapeCasts_S16384x64x64_S16384x4096 : S16384x64x64.ShapeCasts S16384x4096
  shapeCasts_S512x64x64_S512x4096 : S512x64x64.ShapeCasts S512x4096
  transposes_S512x4096_S4096x512_1_0 : S512x4096.Transposes [1, 0] S4096x512
  dot_S16384x1024_S1024x64_S16384x64_1_0_0_1_n_n_wf : DotDims.WF S16384x1024 S1024x64 S16384x64 [1] [0] [0] [1] [] []
  dot_S16384x4096_S4096x512_S16384x512_1_0_0_1_n_n_wf : DotDims.WF S16384x4096 S4096x512 S16384x512 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.Tucker.lean ====
import Idealize.ShloMosaic.PureOps.Ideal.Laws
import Idealize.ShloMosaic.Lib.ValueIdx

/-!
# A bilinear layer through two rank-64 projections, on rows of extended reals

Row `p` of the result is built from row `p` of each input alone: the two rows are projected to 64 numbers each,
`a[i] = ∑ k, x1[p, k] · u1[k, i]` and `b[j] = ∑ k, x2[p, k] · u2[k, j]`; their outer product `a[i] · b[j]` is laid out
as one row of 4096 numbers, entry `i · 64 + j`; and that row is contracted with the core matrix `bt : [4096, 512]`:

  `layer[p, q] = ∑ k < 4096, (a[k / 64] · b[k % 64]) · bt[k, q]`.

The definition is generic in the number of rows, so a block of rows and the whole array are read by the same function
(`layer_rows`). Nothing here needs finiteness: the sums and products are taken in the same order on both sides of every
equation below.
-/

noncomputable section

namespace Cert.Tucker

open Idealize.ShloMosaic Idealize.ShloMosaic.ValueIdx

/-- An `M × N` matrix of extended reals. -/
abbrev Mat (M N : Nat) : Type := FVec Ideal (⟨2, ![M, N]⟩ : Shape) .f32

/-- Row `p` of `x` projected on column `i` of `u`. -/
def proj {M : Nat} (x : Mat M 1024) (u : Mat 1024 64) (p : Fin M) (i : Fin 64) : EReal :=
  ∑ k : Fin 1024, x (ix2 p k) * u (ix2 k i)

/-- The first factor's position in the flattened outer product: `k / 64`. -/
def hi (k : Fin 4096) : Fin 64 := ⟨k.val / 64, by have := k.isLt; omega⟩

/-- The second factor's position in the flattened outer product: `k % 64`. -/
def lo (k : Fin 4096) : Fin 64 := ⟨k.val % 64, Nat.mod_lt _ (by decide)⟩

theorem hi_lo (k : Fin 4096) : k.val = (hi k).val * 64 + (lo k).val := by
  show k.val = k.val / 64 * 64 + k.val % 64
  omega

/-- The layer: the flattened outer product of the two projected rows, contracted with `bt`. -/
def layer {M : Nat} (x1 x2 : Mat M 1024) (u1 u2 : Mat 1024 64) (bt : Mat 4096 512) : Mat M 512 := fun j =>
  ∑ k : Fin 4096, (proj x1 u1 (j 0) (hi k) * proj x2 u2 (j 0) (lo k)) * bt (ix2 k (j 1))

theorem layer_apply {M : Nat} (x1 x2 : Mat M 1024) (u1 u2 : Mat 1024 64) (bt : Mat 4096 512) (p : Fin M) (q : Fin 512) :
    layer x1 x2 u1 u2 bt (ix2 p q)
      = ∑ k : Fin 4096, (proj x1 u1 p (hi k) * proj x2 u2 p (lo k)) * bt (ix2 k q) := rfl

/-- An entry of row `r` of the layer is a function of row `r` of each input. -/
theorem layer_rows {M M' : Nat} (x1 x2 : Mat M 1024) (x1' x2' : Mat M' 1024) (u1 u2 : Mat 1024 64) (bt : Mat 4096 512)
    (r : Fin M) (r' : Fin M') (q : Fin 512) (h1 : ∀ k : Fin 1024, x1 (ix2 r k) = x1' (ix2 r' k))
    (h2 : ∀ k : Fin 1024, x2 (ix2 r k) = x2' (ix2 r' k)) :
    layer x1 x2 u1 u2 bt (ix2 r q) = layer x1' x2' u1 u2 bt (ix2 r' q) := by
  have e1 : ∀ i, proj x1 u1 r i = proj x1' u1 r' i := fun i => Finset.sum_congr rfl fun k _ => by rw [h1 k]
  have e2 : ∀ i, proj x2 u2 r i = proj x2' u2 r' i := fun i => Finset.sum_congr rfl fun k _ => by rw [h2 k]
  rw [layer_apply, layer_apply]
  exact Finset.sum_congr rfl fun k _ => by rw [e1, e2]

end Cert.Tucker

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibOuterFlat.lean ====
import Idealize.ShloMosaic.PureOps.Ideal.Laws
import Idealize.ShloMosaic.Lib.ValueIdx
import Idealize.ShloMosaic.Lib.Pipeline.Value

/-!
# The row-wise outer product, flattened, in a kernel's spelling, read at an entry

`(a[:, :, None] * b[:, None, :]).reshape(R, A·B)` as a kernel spells it: `a : [R, A]` is shape-cast to `[R, A, 1]` and
broadcast to `[R, A, B]`, `b : [R, B]` is shape-cast to `[R, 1, B]` and broadcast to `[R, A, B]`, the two are multiplied
entry by entry and the product is shape-cast to `[R, N]` with `N = A·B`. Entry `(p, i·B + j)` of the result is
`a[p, i] · b[p, j]`: every step keeps the row-major position or repeats an entry along a unit axis.
-/

noncomputable section

namespace Cert.LibOuterFlat

open Idealize.ShloMosaic Idealize.ShloMosaic.ValueIdx

variable {α : Type}

/-- A column cast `[R, A] → [R, A, 1]` reads `(p, i)` at `(p, i, 0)`. -/
theorem castCol_apply (R A : Nat) (v : (⟨2, ![R, A]⟩ : Shape).Idx → α)
    (h : (⟨2, ![R, A]⟩ : Shape).ShapeCasts ⟨3, ![R, A, 1]⟩) (p : Fin R) (i : Fin A) (z : Fin 1) :
    shapeCast ⟨3, ![R, A, 1]⟩ v h (ix3 p i z) = v (ix2 p i) := by
  refine shapeCast_apply v h (ix3 p i z) (ix2 p i) ?_
  rw [Shape.rowMajor_val_two, Shape.rowMajor_val_three]
  show p.val * A + i.val = (p.val * A + i.val) * 1 + z.val
  have := z.isLt
  omega

/-- A row cast `[R, B] → [R, 1, B]` reads `(p, j)` at `(p, 0, j)`. -/
theorem castRow_apply (R B : Nat) (v : (⟨2, ![R, B]⟩ : Shape).Idx → α)
    (h : (⟨2, ![R, B]⟩ : Shape).ShapeCasts ⟨3, ![R, 1, B]⟩) (p : Fin R) (z : Fin 1) (j : Fin B) :
    shapeCast ⟨3, ![R, 1, B]⟩ v h (ix3 p z j) = v (ix2 p j) := by
  refine shapeCast_apply v h (ix3 p z j) (ix2 p j) ?_
  rw [Shape.rowMajor_val_two, Shape.rowMajor_val_three]
  show p.val * B + j.val = (p.val * 1 + z.val) * B + j.val
  have := z.isLt
  have hz : z.val = 0 := by omega
  rw [hz, Nat.mul_one, Nat.add_zero]

/-- A broadcast `[R, A, 1] → [R, A, B]` repeats the column along the last axis. -/
theorem bcastCol_apply (R A B : Nat) (v : (⟨3, ![R, A, 1]⟩ : Shape).Idx → α)
    (h : (⟨3, ![R, A, 1]⟩ : Shape).Broadcasts ⟨3, ![R, A, B]⟩) (p : Fin R) (i : Fin A) (j : Fin B) :
    broadcastTo ⟨3, ![R, A, B]⟩ v h (ix3 p i j) = v (ix3 p i (0 : Fin 1)) := by
  have hp := p.isLt
  have hi := i.isLt
  refine broadcastTo_apply v h (ix3 p i j) (ix3 p i (0 : Fin 1)) ?_
  intro a
  match a with
  | ⟨0, _⟩ =>
    show p.val = if R = 1 then 0 else p.val
    split
    · omega
    · rfl
  | ⟨1, _⟩ =>
    show i.val = if A = 1 then 0 else i.val
    split
    · omega
    · rfl
  | ⟨2, _⟩ => exact (if_pos rfl).symm

/-- A broadcast `[R, 1, B] → [R, A, B]` repeats the row along the middle axis. -/
theorem bcastRow_apply (R A B : Nat) (v : (⟨3, ![R, 1, B]⟩ : Shape).Idx → α)
    (h : (⟨3, ![R, 1, B]⟩ : Shape).Broadcasts ⟨3, ![R, A, B]⟩) (p : Fin R) (i : Fin A) (j : Fin B) :
    broadcastTo ⟨3, ![R, A, B]⟩ v h (ix3 p i j) = v (ix3 p (0 : Fin 1) j) := by
  have hp := p.isLt
  have hj := j.isLt
  refine broadcastTo_apply v h (ix3 p i j) (ix3 p (0 : Fin 1) j) ?_
  intro a
  match a with
  | ⟨0, _⟩ =>
    show p.val = if R = 1 then 0 else p.val
    split
    · omega
    · rfl
  | ⟨1, _⟩ => exact (if_pos rfl).symm
  | ⟨2, _⟩ =>
    show j.val = if B = 1 then 0 else j.val
    split
    · omega
    · rfl

/-- The flattening cast `[R, A, B] → [R, N]`, `N = A·B`, reads `(p, i, j)` at `(p, i·B + j)`. -/
theorem flatten_apply (R A B N : Nat) (hN : N = A * B) (v : (⟨3, ![R, A, B]⟩ : Shape).Idx → α)
    (h : (⟨3, ![R, A, B]⟩ : Shape).ShapeCasts ⟨2, ![R, N]⟩) (p : Fin R) (k : Fin N) (i : Fin A) (j : Fin B)
    (hk : k.val = i.val * B + j.val) :
    shapeCast ⟨2, ![R, N]⟩ v h (ix2 p k) = v (ix3 p i j) := by
  refine shapeCast_apply v h (ix2 p k) (ix3 p i j) ?_
  rw [Shape.rowMajor_val_two, Shape.rowMajor_val_three]
  show (p.val * A + i.val) * B + j.val = p.val * N + k.val
  rw [hk, hN, Nat.add_mul, Nat.mul_assoc, Nat.add_assoc]

/-- The whole chain on the extended reals: entry `(p, i·B + j)` of the flattened row-wise outer product is
    `a[p, i] · b[p, j]`. -/
theorem outerFlat_apply (R A B N : Nat) (hN : N = A * B)
    (hc1 : (⟨2, ![R, A]⟩ : Shape).ShapeCasts ⟨3, ![R, A, 1]⟩) (hc2 : (⟨2, ![R, B]⟩ : Shape).ShapeCasts ⟨3, ![R, 1, B]⟩)
    (hb1 : (⟨3, ![R, A, 1]⟩ : Shape).Broadcasts ⟨3, ![R, A, B]⟩) (hb2 : (⟨3, ![R, 1, B]⟩ : Shape).Broadcasts ⟨3, ![R, A, B]⟩)
    (hf : (⟨3, ![R, A, B]⟩ : Shape).ShapeCasts ⟨2, ![R, N]⟩)
    (a : FVec Ideal (⟨2, ![R, A]⟩ : Shape) .f32) (b : FVec Ideal (⟨2, ![R, B]⟩ : Shape) .f32)
    (p : Fin R) (k : Fin N) (i : Fin A) (j : Fin B) (hk : k.val = i.val * B + j.val) :
    shapeCast ⟨2, ![R, N]⟩
        (mulf (broadcastTo ⟨3, ![R, A, B]⟩ (shapeCast ⟨3, ![R, A, 1]⟩ a hc1) hb1)
          (broadcastTo ⟨3, ![R, A, B]⟩ (shapeCast ⟨3, ![R, 1, B]⟩ b hc2) hb2)) hf (ix2 p k)
      = a (ix2 p i) * b (ix2 p j) := by
  rw [flatten_apply R A B N hN _ hf p k i j hk, mulf_apply, bcastCol_apply, bcastRow_apply, castCol_apply, castRow_apply]

end Cert.LibOuterFlat

end
-- ==== Proof.KernelBody.lean ====
import proofs.«120480_j71648644432003_1_alg».proof.Proof.Gen.KernelIdeal.Skeleton
import proofs.«120480_j71648644432003_1_alg».proof.Proof.Tucker
import proofs.«120480_j71648644432003_1_alg».proof.Proof.LibContract
import proofs.«120480_j71648644432003_1_alg».proof.Proof.LibOuterFlat

/-!
# What the kernel body computes on one block of rows

On the extended reals a change of float format is the identity, so the body's three products are exact: the two
`[512, 1024] × [1024, 64]` products into zero are the projections of the block's rows, their row-wise outer product is
flattened to `[512, 4096]`, and the product of that with the `[4096, 512]` core into zero is the layer on the block's
rows. Entry `(p, q)` of the stored value is `Tucker.layer` of the loaded blocks at `(p, q)`.
-/

noncomputable section

namespace Cert.KernelIdeal.Body

open Cert.KernelIdeal Cert.KernelIdeal.Gen Idealize.ShloMosaic Idealize.ShloMosaic.ValueIdx Cert.Tucker

/-- A projection as the body spells it: the product of the two operands, both cast to bf16, into the zero accumulator. -/
theorem proj_apply (x : Vec Ideal S512x1024 .f32) (u : Vec Ideal S1024x64 .f32) (p : Fin 512) (i : Fin 64) :
    matmul dot_S512x1024_S1024x64_S512x64_1_0_0_1_n_n none (truncf .bf16 x bitsLt_bf16_f32) (truncf .bf16 u bitsLt_bf16_f32)
      (constant (F := Ideal) S512x64 .f32 0x00000000#32) (ix2 p i) = proj x u p i :=
  Cert.LibDense.matmul_plain_zero_apply 512 1024 64 none (truncf .bf16 x bitsLt_bf16_f32) (truncf .bf16 u bitsLt_bf16_f32) p i

/-- The stored value at entry `(p, q)` is the layer of the loaded blocks. -/
theorem pay_apply (x1 x2 : Vec Ideal S512x1024 .f32) (u1 u2 : Vec Ideal S1024x64 .f32) (bt : Vec Ideal S4096x512 .f32)
    (p q : Fin 512) :
    k0_pay1 (F := Ideal) x1 x2 u1 u2 bt (ix2 p q) = layer x1 x2 u1 u2 bt (ix2 p q) := by
  unfold k0_pay1
  -- the last product, into zero, is a sum over the 4096 flattened positions
  refine (Cert.LibDense.matmul_plain_zero_apply 512 4096 512 none _ _ p q).trans ?_
  rw [layer_apply]
  refine Finset.sum_congr rfl fun k _ => ?_
  -- the core operand is cast to its own shape and to bf16: both the identity
  refine congrArg₂ (· * ·) ?_ (congrFun (shapeCast_self bt shapeCasts_S4096x512_S4096x512) (ix2 k q))
  -- position k of the flattened outer product is the pair (k / 64, k % 64)
  refine (Cert.LibOuterFlat.outerFlat_apply 512 64 64 4096 rfl shapeCasts_S512x64_S512x64x1 shapeCasts_S512x64_S512x1x64
    broadcasts_S512x64x1_S512x64x64 broadcasts_S512x1x64_S512x64x64 shapeCasts_S512x64x64_S512x4096 _ _ p k (hi k) (lo k) (hi_lo k)).trans ?_
  exact congrArg₂ (· * ·) (proj_apply x1 u1 p (hi k)) (proj_apply x2 u2 p (lo k))

end Cert.KernelIdeal.Body

end
-- ==== Proof.KernelValue.lean ====
import proofs.«120480_j71648644432003_1_alg».proof.Proof.Gen.KernelIdeal.Value
import proofs.«120480_j71648644432003_1_alg».proof.Proof.KernelBody
import Idealize.ShloMosaic.Lib.StableHlo.Run
import Idealize.ShloMosaic.Lib.Pipeline.Value

/-!
# The kernel's result array is the layer of the argument arrays

The grid has 32 points; point `t` stages rows `512·t … 512·t + 511` of the two inputs, the two projection matrices and
the core operand whole, and writes back rows `512·t … 512·t + 511` of the result. The core operand is the array the
host wrote before the region: the core tensor flattened to `[512, 4096]` and transposed. Since an entry of row `r` of the
layer depends on row `r` of each input only (`Tucker.layer_rows`), what point `t` writes back is block `t` of the layer of
the whole arrays; the 32 blocks cover the result array.
-/

noncomputable section

namespace Cert.KernelIdeal.RowValue

open Cert.KernelIdeal Cert.KernelIdeal.Gen Idealize.ShloMosaic Idealize.ShloMosaic.TcCoe Idealize.SL.Sem
open Idealize.ShloMosaic.ValueIdx Cert.Tucker
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The core tensor as both programs hand it to the last product: flattened to `[512, 4096]`, then transposed. -/
abbrev coreT (b : (⟨S512x64x64, .f32⟩ : BufTy).Contents (Elt Ideal)) : Vec Ideal S4096x512 .f32 :=
  transpose S4096x512 [1, 0] (shapeCast _ b shapeCasts_S512x64x64_S512x4096) transposes_S512x4096_S4096x512_1_0

/-- The array the region's fifth window stages is the host's flattened, transposed core tensor. -/
theorem V_core (c : Dev nD) :
    (V m c main_v1 : S4096x512.Idx → EReal) = coreT (m ((c : Thread nD τ).loc main_arg4)) := by
  dsimp only [Gen.V, Gen.hostOps0]
  after_results
  rfl

/-- The printed index maps over the 32 points: the two inputs move with the output down the rows, the other three
    windows stay at block (0, 0), and the output's row block is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first projection matrix is staged whole at every point. -/
theorem blk2_eq (c : Dev nD) (t : Fin cfg0.N) : (iblk m c 2 t : Vec Ideal S1024x64 .f32) = V m c main_arg2 := by
  funext y
  show V m c main_arg2 (((cfg0.win 2).blk t).view.emb y) = V m c main_arg2 y
  obtain ⟨-, -, -, -, e0, e1, -⟩ := idx_facts t
  have h : ((cfg0.win 2).blk t).view.emb y = y := by
    funext a; apply Fin.ext
    match a with
    | ⟨0, _⟩ => show win0_2.index t (0 : Fin 2) * 1024 + 1 * (y 0).val = (y 0).val; omega
    | ⟨1, _⟩ => show win0_2.index t (1 : Fin 2) * 64 + 1 * (y 1).val = (y 1).val; omega
  rw [h]

/-- The second projection matrix is staged whole at every point. -/
theorem blk3_eq (c : Dev nD) (t : Fin cfg0.N) : (iblk m c 3 t : Vec Ideal S1024x64 .f32) = V m c main_arg3 := by
  funext y
  show V m c main_arg3 (((cfg0.win 3).blk t).view.emb y) = V m c main_arg3 y
  obtain ⟨-, -, -, -, -, -, e0, e1, -⟩ := idx_facts t
  have h : ((cfg0.win 3).blk t).view.emb y = y := by
    funext a; apply Fin.ext
    match a with
    | ⟨0, _⟩ => show win0_3.index t (0 : Fin 2) * 1024 + 1 * (y 0).val = (y 0).val; omega
    | ⟨1, _⟩ => show win0_3.index t (1 : Fin 2) * 64 + 1 * (y 1).val = (y 1).val; omega
  rw [h]

/-- The core operand is staged whole at every point. -/
theorem blk4_eq (c : Dev nD) (t : Fin cfg0.N) : (iblk m c 4 t : Vec Ideal S4096x512 .f32) = V m c main_v1 := by
  funext y
  show V m c main_v1 (((cfg0.win 4).blk t).view.emb y) = V m c main_v1 y
  obtain ⟨-, -, -, -, -, -, -, -, e0, e1, -⟩ := idx_facts t
  have h : ((cfg0.win 4).blk t).view.emb y = y := by
    funext a; apply Fin.ext
    match a with
    | ⟨0, _⟩ => show win0_4.index t (0 : Fin 2) * 4096 + 1 * (y 0).val = (y 0).val; omega
    | ⟨1, _⟩ => show win0_4.index t (1 : Fin 2) * 512 + 1 * (y 1).val = (y 1).val; omega
  rw [h]

/-- Row `p` of the first input's block at point `t` is row `512·t + p` of the array. -/
theorem blk0_row (c : Dev nD) (t : Fin cfg0.N) (p : Fin 512) (r : Fin 16384) (hr : r.val = t.val * 512 + p.val) (k : Fin 1024) :
    (iblk m c 0 t : Vec Ideal S512x1024 .f32) (ix2 p k) = V m c main_arg0 (ix2 r k) := by
  show V m c main_arg0 (((cfg0.win 0).blk t).view.emb (ix2 p k)) = V m c main_arg0 (ix2 r k)
  obtain ⟨e0, e1, -, -, -, -, -, -, -, -, e5, -⟩ := idx_facts t
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  rw [h]

/-- Row `p` of the second input's block at point `t` is row `512·t + p` of the array. -/
theorem blk1_row (c : Dev nD) (t : Fin cfg0.N) (p : Fin 512) (r : Fin 16384) (hr : r.val = t.val * 512 + p.val) (k : Fin 1024) :
    (iblk m c 1 t : Vec Ideal S512x1024 .f32) (ix2 p k) = V m c main_arg1 (ix2 r k) := by
  show V m c main_arg1 (((cfg0.win 1).blk t).view.emb (ix2 p k)) = V m c main_arg1 (ix2 r k)
  obtain ⟨-, -, e0, e1, -, -, -, -, -, -, e5, -⟩ := idx_facts t
  have h : ((cfg0.win 1).blk t).view.emb (ix2 p k) = ix2 r k := by
    funext a; apply Fin.ext
    match a with
    | ⟨0, _⟩ => show win0_1.index t (0 : Fin 2) * 512 + 1 * p.val = r.val; omega
    | ⟨1, _⟩ => show win0_1.index t (1 : Fin 2) * 1024 + 1 * k.val = k.val; omega
  rw [h]

/-- What point `t` writes back is block `t` of the layer of the arrays as the region finds them. -/
theorem flushed_eq (c : Dev nD) (t : Fin cfg0.N) :
    (dats m 0 c).flushed 5 t = ((cfg0.win 5).blk t).view.read (Elt Ideal)
      (layer (V m c main_arg0) (V m c main_arg1) (V m c main_arg2) (V m c main_arg3) (V m c main_v1)) := by
  rw [Value.flushed5]
  unfold out0_5
  rw [View.canon_unit_zero hz]
  simp only [View.ld_unit_zero (S := S512x1024) hz, View.ld_unit_zero (S := S1024x64) hz, View.ld_unit_zero (S := S4096x512) hz]
  rw [blk2_eq, blk3_eq, blk4_eq]
  funext j
  obtain ⟨p, q, rfl⟩ : ∃ (p : Fin 512) (q : Fin 512), j = ix2 p q := ⟨j 0, j 1, eq_ix2 j⟩
  show k0_pay1 (F := Ideal) (iblk m c 0 t) (iblk m c 1 t) (V m c main_arg2) (V m c main_arg3) (V m c main_v1) (ix2 p q)
    = layer (V m c main_arg0) (V m c main_arg1) (V m c main_arg2) (V m c main_arg3) (V m c main_v1)
        (((cfg0.win 5).blk t).view.emb (ix2 p q))
  refine (Cert.KernelIdeal.Body.pay_apply _ _ _ _ _ p q).trans ?_
  have ht : t.val < 32 := t.isLt
  have hp := p.isLt
  obtain ⟨-, -, -, -, -, -, -, -, -, -, e0, e1⟩ := idx_facts t
  -- the output's block at point t, entry (p, q), is entry (512·t + p, q) of the array
  have h : ((cfg0.win 5).blk t).view.emb (ix2 p q) = ix2 (⟨t.val * 512 + p.val, by omega⟩ : Fin 16384) q := by
    funext a; apply Fin.ext
    match a with
    | ⟨0, _⟩ => show win0_5.index t (0 : Fin 2) * 512 + 1 * p.val = t.val * 512 + p.val; omega
    | ⟨1, _⟩ => show win0_5.index t (1 : Fin 2) * 512 + 1 * q.val = q.val; omega
  rw [h]
  exact layer_rows _ _ _ _ _ _ _ p ⟨t.val * 512 + p.val, by omega⟩ q (blk0_row m c t p _ rfl) (blk1_row m c t p _ rfl)

/-- An index of the result array is in point `t`'s block iff each coordinate is in the block's range on its axis. -/
theorem mem_blk (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2).slice (win0_5.rect t)).set ↔ _
  rw [View.set_slice_whole, Rect.mem_set_unit]
  exact Iff.rfl

/-- Row `r` of the result array lies in the block of point `r / 512`. -/
theorem covered (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  obtain ⟨t, ht⟩ : ∃ t : Fin cfg0.N, t.val = (i 0).val / 512 := ⟨⟨(i 0).val / 512, by rw [hN]; omega⟩, rfl⟩
  refine ⟨t, flush0_5 t, ?_⟩
  rw [mem_blk]
  obtain ⟨-, -, -, -, -, -, -, -, -, -, e0, e1⟩ := idx_facts t
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

/-- The result array after the run: the layer of the argument arrays over the flattened, transposed core tensor. -/
theorem final (c : Dev nD) :
    (dats m 0 c).arrAt 5 cfg0.N
      = layer (m ((c : Thread nD τ).loc main_arg0)) (m ((c : Thread nD τ).loc main_arg1)) (m ((c : Thread nD τ).loc main_arg2))
          (m ((c : Thread nD τ).loc main_arg3)) (coreT (m ((c : Thread nD τ).loc main_arg4))) := by
  rw [(dats m 0 c).arrAt_eq_of_cover 5
    (layer (V m c main_arg0) (V m c main_arg1) (V m c main_arg2) (V m c main_arg3) (V m c main_v1))
    (fun t _ => flushed_eq m c t) covered]
  rw [V_main_arg0 m c, V_main_arg1 m c, V_main_arg2 m c, V_main_arg3 m c, V_core m c]

/-- The kernel's run with its result named: the layer of the arguments, the arguments unchanged. -/
theorem run : θ_run defs (onTc (τ := τ) (main (F := Ideal))) ⟨m, fun _ => 0, ρ⟩ fun r => ∀ c : Dev nD,
      r.2.mem ((c : Thread nD τ).loc main_v2)
        = layer (m ((c : Thread nD τ).loc main_arg0)) (m ((c : Thread nD τ).loc main_arg1)) (m ((c : Thread nD τ).loc main_arg2))
            (m ((c : Thread nD τ).loc main_arg3)) (coreT (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RowValue

end
-- ==== Proof.RefValue.lean ====
import proofs.«120480_j71648644432003_1_alg».proof.Proof.Gen.ReferenceIdeal.Read
import proofs.«120480_j71648644432003_1_alg».proof.Proof.Tucker

/-!
# The reference computes the layer

The reference projects every row of the two inputs (`dot_general`), repeats the first projection along a new last axis
and the second along a new middle axis (`broadcast_in_dim` twice each), multiplies, flattens the two small axes into one
of 4096 (`reshape`: position `k` holds the pair `(k / 64, k % 64)`), and contracts with the transposed, flattened core.
Read at an entry through the generated stage lemmas this is `Tucker.layer` of the arguments, the core operand left as
the reference's own transposed reshape.
-/

noncomputable section

namespace Cert.ReferenceIdeal.RefValue

open Cert.ReferenceIdeal Cert.ReferenceIdeal.Read Idealize.ShloMosaic Idealize.ShloMosaic.ValueIdx Cert.Tucker

/-- The reference's result is the layer of its arguments over its own core operand `val_main_v9`. -/
theorem ref_eq (x0 x1 : (⟨S16384x1024, .f32⟩ : BufTy).Contents (Elt Ideal)) (x2 x3 : (⟨S1024x64, .f32⟩ : BufTy).Contents (Elt Ideal))
    (x4 : (⟨S512x64x64, .f32⟩ : BufTy).Contents (Elt Ideal)) :
    val_main_v10 (F := Ideal) x0 x1 x2 x3 x4 = layer x0 x1 x2 x3 (val_main_v9 (F := Ideal) x4) := by
  funext i
  obtain ⟨p, q, rfl⟩ : ∃ (p : Fin 16384) (q : Fin 512), i = ix2 p q := ⟨i 0, i 1, eq_ix2 i⟩
  rw [val_main_v10_apply, layer_apply]
  refine Finset.sum_congr rfl fun k _ => ?_
  have hk := k.isLt
  -- the core operand is read at (k, q)
  have er : ridx_main_v10 (ix2 p q) k = ix2 k q :=
    funext fun a => Fin.ext (by match a with | ⟨0, _⟩ => rfl | ⟨1, _⟩ => rfl)
  -- the flattened position k of row p is the pair (k / 64, k % 64) of row p: the first projection is read at
  -- (p, k / 64) and the second at (p, k % 64), each a sum over the row
  have e0l : ∀ k' : Fin 1024, lidx_main_v0 (idx_main_v2 (idx_main_v4 (idx_main_v7 (lidx_main_v10 (ix2 p q) k)))) k' = ix2 p k' :=
    fun k' => funext fun a => Fin.ext (by
      match a with
      | ⟨0, _⟩ => show (p.val * 4096 + k.val) / 4096 = p.val; omega
      | ⟨1, _⟩ => rfl)
  have e0r : ∀ k' : Fin 1024, ridx_main_v0 (idx_main_v2 (idx_main_v4 (idx_main_v7 (lidx_main_v10 (ix2 p q) k)))) k' = ix2 k' (hi k) :=
    fun k' => funext fun a => Fin.ext (by
      match a with
      | ⟨0, _⟩ => rfl
      | ⟨1, _⟩ => show (p.val * 4096 + k.val) / 64 % 64 = k.val / 64; omega)
  have e1l : ∀ k' : Fin 1024, lidx_main_v1 (idx_main_v3 (idx_main_v5 (idx_main_v7 (lidx_main_v10 (ix2 p q) k)))) k' = ix2 p k' :=
    fun k' => funext fun a => Fin.ext (by
      match a with
      | ⟨0, _⟩ => show (p.val * 4096 + k.val) / 4096 = p.val; omega
      | ⟨1, _⟩ => rfl)
  have e1r : ∀ k' : Fin 1024, ridx_main_v1 (idx_main_v3 (idx_main_v5 (idx_main_v7 (lidx_main_v10 (ix2 p q) k)))) k' = ix2 k' (lo k) :=
    fun k' => funext fun a => Fin.ext (by
      match a with
      | ⟨0, _⟩ => rfl
      | ⟨1, _⟩ => show (p.val * 4096 + k.val) % 64 = k.val % 64; omega)
  rw [er, val_main_v7_apply, val_main_v6_apply, val_main_v4_apply, val_main_v5_apply, val_main_v2_apply, val_main_v3_apply,
    val_main_v0_apply, val_main_v1_apply]
  simp only [e0l, e0r, e1l, e1r]
  rfl

end Cert.ReferenceIdeal.RefValue

end
-- ==== Proof.lean ====
/-
  Both programs compute one bilinear layer, row by row. Row `p` of each of the two inputs `x1, x2 : [16384, 1024]` is
  projected to 64 numbers, `a[i] = ∑ k, x1[p, k] · U1[k, i]` and `b[j] = ∑ k, x2[p, k] · U2[k, j]`; the outer product
  `a[i] · b[j]` is flattened to 4096 numbers, position `i · 64 + j`; and that row is contracted with the core tensor
  `B : [512, 64, 64]` flattened to `[512, 4096]` and transposed:

    `Z[p, q] = ∑ k < 4096, (a[k / 64] · b[k % 64]) · B[q, k / 64, k % 64]`  (`Cert.Tucker.layer`).

  The kernel does this on 32 blocks of 512 rows with its operands cast to bf16 — the identity on the extended reals — and
  its products accumulated into zero; the reference does it on the whole arrays. The sums and products are taken in the same
  order on both sides, so no law of arithmetic is needed and the inputs' finiteness is never used: the kernel's stored block
  is the layer of the loaded blocks (`Body.pay_apply`), an entry of a row depends on that row of the inputs only, so the 32
  blocks are the blocks of the layer of the whole arrays and cover the result (`RowValue.final`); the reference's stages,
  read at an entry, are the same function (`RefValue.ref_eq`); the flattened, transposed core is the same term in both
  programs. No operation was rewritten by the idealization, so `preserves` has nothing to state.
-/
import proofs.«120480_j71648644432003_1_alg».proof.Defs
import proofs.«120480_j71648644432003_1_alg».proof.Proof.Gen.Kernel
import proofs.«120480_j71648644432003_1_alg».proof.Proof.Gen.Kernel.Skeleton
import proofs.«120480_j71648644432003_1_alg».proof.Proof.Gen.Kernel.Launch
import proofs.«120480_j71648644432003_1_alg».proof.Proof.Gen.Kernel.Points
import proofs.«120480_j71648644432003_1_alg».proof.Proof.Gen.Kernel.Frame
import proofs.«120480_j71648644432003_1_alg».proof.Proof.Gen.KernelIdeal
import proofs.«120480_j71648644432003_1_alg».proof.Proof.Gen.KernelIdeal.Skeleton
import proofs.«120480_j71648644432003_1_alg».proof.Proof.Gen.KernelIdeal.Launch
import proofs.«120480_j71648644432003_1_alg».proof.Proof.Gen.KernelIdeal.Points
import proofs.«120480_j71648644432003_1_alg».proof.Proof.Gen.KernelIdeal.Frame
import proofs.«120480_j71648644432003_1_alg».proof.Proof.Gen.ReferenceIdeal
import proofs.«120480_j71648644432003_1_alg».proof.Proof.Gen.KernelIdeal.Value
import proofs.«120480_j71648644432003_1_alg».proof.Proof.Gen.ReferenceIdeal.Run
import proofs.«120480_j71648644432003_1_alg».proof.Proof.Gen.ReferenceIdeal.Read
import proofs.«120480_j71648644432003_1_alg».proof.Proof.Gen.Pre_finite_inputs
import proofs.«120480_j71648644432003_1_alg».proof.Proof.KernelValue
import proofs.«120480_j71648644432003_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel on the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their result
    array: the kernel block by block, the reference stage by stage, over the same flattened and transposed core tensor. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _ _).trans ((Cert.ReferenceIdeal.RefValue.ref_eq _ _ _ _ _).trans ?_)
  rw [(hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
